-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_
  reducesTo_S_S_d : S_.ReducesTo [] S_

variable [Facts]

def fn_part1 {F : FTy → Type} [FloatOps F] (main_arg4 : FVec F S8192 .f32) (main_arg5 : FVec F S8192 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S8192 .f32 := Host.absf main_arg4
  let main_cst_6 : FVec F S_ .f32 := constant S_ .f32 0x7F800000#32
  let main_v19 : FVec F S8192 .f32 := broadcastInDim S8192 ![] bcast_S_S8192 main_cst_6
  let main_v20 : IVec S8192 1 := cmpf .olt main_v18 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v17 main_v21
  let main_v23 : FVec F S8192 .f32 := Host.absf main_arg5
  let main_cst_8 : FVec F S_ .f32 := constant S_ .f32 0x7F800000#32
  let main_v24 : FVec F S8192 .f32 := broadcastInDim S8192 ![] bcast_S_S8192 main_cst_8
  let main_v25 : IVec S8192 1 := cmpf .olt main_v23 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v22 main_v26
  main_v27

def fn {F : FTy → Type} [FloatOps F] (main_arg0 : FVec F S8192x8192 .f32) (main_arg1 : FVec F S8192 .f32) (main_arg2 : FVec F S8192 .f32) (main_arg3 : FVec F S_ .f32) (main_arg4 : FVec F S8192 .f32) (main_arg5 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_v13 main_v15 main_c_5
-- ==== Kernel.lean ====
abbrev S8192x8192 : Shape := ⟨2, ![8192, 8192]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S1x1 : Shape := ⟨2, ![1, 1]⟩
abbrev S256x8192 : Shape := ⟨2, ![256, 8192]⟩
abbrev S256x1 : Shape := ⟨2, ![256, 1]⟩

abbrev nBuf : Space → Nat
  | .hbm => 33
  | .vmem => 11
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S1x8192, .f32⟩
  | .hbm, ⟨26, _⟩ => ⟨S8192, .f32⟩
  | .hbm, ⟨27, _⟩ => ⟨S1x8192, .f32⟩
  | .hbm, ⟨28, _⟩ => ⟨S8192x1, .f32⟩
  | .hbm, ⟨29, _⟩ => ⟨S8192, .f32⟩
  | .hbm, ⟨30, _⟩ => ⟨S8192x1, .f32⟩
  | .hbm, ⟨31, _⟩ => ⟨S1x1, .f32⟩
  | .hbm, ⟨32, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S1x8192, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x1, .f32⟩
  | .local _ .vmem, ⟨9, _⟩ => ⟨S256x8192, .f32⟩
  | .local _ .vmem, ⟨10, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_call0_v0 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_v8 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S8192_S_d0 : S8192.ReducesTo [0] S_
  h_S_ : 0 < S_.numel
  bcast_S_S8192 : S_.BroadcastsInDim S8192 (![] : Fin 0 → Fin S8192.rank)
  shapeCasts_S8192_S1x8192 : S8192.ShapeCasts S1x8192
  shapeCasts_S8192_S8192x1 : S8192.ShapeCasts S8192x1
  shapeCasts_S_S1x1 : S_.ShapeCasts S1x1
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S256x1_S256x8192 : S256x1.Broadcasts S256x8192
  broadcasts_S1x8192_S256x8192 : S1x8192.Broadcasts S256x8192
  broadcasts_S1x1_S256x8192 : S1x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8192.size a ≤ S8192x8192.size a
  hwx0_6 : ∀ i : grid0.Coords, EltTy.bits .f32 = 32 ∨ (Rect.block (s := S8192x8192) S256x8192.size (cc0_transform_6 i) (hinb0_6 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S256x8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S8192x1, .i1⟩
  | .hbm, ⟨26, _⟩ => ⟨S1x8192, .i1⟩
  | .hbm, ⟨27, _⟩ => ⟨S8192x8192, .i1⟩
  | .hbm, ⟨28, _⟩ => ⟨S8192x8192, .i1⟩
  | .hbm, ⟨29, _⟩ => ⟨S8192x8192, .i1⟩
  | .hbm, ⟨30, _⟩ => ⟨S8192x1, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .i1⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_call0_v0 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_v8 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_call3_v0 : Ref sig .tc := ⟨.hbm, 36, rfl⟩
abbrev main_call3_v1 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_call5_v0 : Ref sig .tc := ⟨.hbm, 59, rfl⟩
abbrev main_call5_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_cst_13 : Ref sig .tc := ⟨.hbm, 66, rfl⟩
abbrev main_call6_v0 : Ref sig .tc := ⟨.hbm, 67, rfl⟩
abbrev main_call6_v1 : Ref sig .tc := ⟨.hbm, 68, rfl⟩
abbrev main_call6_v2 : Ref sig .tc := ⟨.hbm, 69, rfl⟩
abbrev main_call6_v3 : Ref sig .tc := ⟨.hbm, 70, rfl⟩
abbrev main_call6_v4 : Ref sig .tc := ⟨.hbm, 71, rfl⟩
abbrev main_v39 : Ref sig .tc := ⟨.hbm, 72, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)

variable [Facts₀]

class Facts : Prop extends Facts₀ where

variable [Facts]
-- ==== Proof.KernelHost.lean ====
/-
  What the kernel's launch finds in the five arrays the host operations write before it.

  Before the pallas_call the host computes, from the spike indicators and spike times, four vectors and
  hands them to the kernel as thin matrices, with the reward as a 1 × 1 matrix:

    active s        = s > 1/2                                   (a bit per neuron)
    now t_pre       = max t_pre + 1 if that maximum exceeds -∞, else 0
    stamped a t_pre t = if a then now t_pre else t              (spike times, refreshed for the active neurons)

    pre_t   as [1, 8192],  float(pre_active)  as [1, 8192],
    post_t  as [8192, 1],  float(post_active) as [8192, 1],  reward as [1, 1].

  Each lemma below reads one of those arrays off the host prefix of the program.
-/
import proofs.«100712_j57329223467260_1_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- Which neurons spiked: the indicator compared with one half. -/
def active (s : FVec F S8192 .f32) : IVec S8192 1 :=
  cmpf .ogt s (broadcastInDim S8192 ![] bcast_S_S8192 (constant S_ .f32 0x3F000000#32))

/-- The current time: one past the latest presynaptic spike time (zero if there is none above -∞). -/
def now (tpre : FVec F S8192 .f32) : FVec F S_ .f32 :=
  select (cmpf .ogt (Host.reduce FloatOps.maximumf tpre (constant S_ .f32 0xFF800000#32) reducesTo_S8192_S_d0 h_S_) (constant S_ .f32 0xFF800000#32))
    (addf (Host.reduce FloatOps.maximumf tpre (constant S_ .f32 0xFF800000#32) reducesTo_S8192_S_d0 h_S_) (constant S_ .f32 0x3F800000#32))
    (constant S_ .f32 0x00000000#32)

/-- Spike times with the active neurons' set to the current time. -/
def stamped (a : IVec S8192 1) (tpre t : FVec F S8192 .f32) : FVec F S8192 .f32 :=
  select a (broadcastInDim S8192 ![] bcast_S_S8192 (now tpre)) t

variable (m : (ℓ : Loc nD τ sig) → Buf (Elt F) ℓ)

set_option maxHeartbeats 2000000 in
/-- Window 1's array: the presynaptic spike times, stamped, as one row. -/
theorem V_preT (c : Dev nD) : (V m c main_v10 : FVec F S1x8192 .f32)
    = shapeCast S1x8192 (stamped (active (m ((c.tc : Thread nD τ).loc main_arg1))) (m ((c.tc : Thread nD τ).loc main_arg4)) (m ((c.tc : Thread nD τ).loc main_arg4))) shapeCasts_S8192_S1x8192 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

set_option maxHeartbeats 2000000 in
/-- Window 2's array: the presynaptic activity bits as the numbers 0 and 1, as one row. -/
theorem V_preActive (c : Dev nD) : (V m c main_v12 : FVec F S1x8192 .f32)
    = shapeCast S1x8192 (uitofp (F := F) .f32 (active (m ((c.tc : Thread nD τ).loc main_arg1)))) shapeCasts_S8192_S1x8192 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

set_option maxHeartbeats 2000000 in
/-- Window 3's array: the postsynaptic spike times, stamped, as one column. -/
theorem V_postT (c : Dev nD) : (V m c main_v13 : FVec F S8192x1 .f32)
    = shapeCast S8192x1 (stamped (active (m ((c.tc : Thread nD τ).loc main_arg2))) (m ((c.tc : Thread nD τ).loc main_arg4)) (m ((c.tc : Thread nD τ).loc main_arg5))) shapeCasts_S8192_S8192x1 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

set_option maxHeartbeats 2000000 in
/-- Window 4's array: the postsynaptic activity bits as the numbers 0 and 1, as one column. -/
theorem V_postActive (c : Dev nD) : (V m c main_v15 : FVec F S8192x1 .f32)
    = shapeCast S8192x1 (uitofp (F := F) .f32 (active (m ((c.tc : Thread nD τ).loc main_arg2)))) shapeCasts_S8192_S8192x1 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

set_option maxHeartbeats 2000000 in
/-- Window 5's array: the reward as a 1 × 1 matrix. -/
theorem V_reward (c : Dev nD) : (V m c main_v16 : FVec F S1x1 .f32)
    = shapeCast S1x1 (m ((c.tc : Thread nD τ).loc main_arg3)) shapeCasts_S_S1x1 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

end Cert.KernelIdeal.Host

end
-- ==== Proof.Spec.lean ====
/-
  The mathematics of the reward-modulated pair rule, stated once, with no program in sight.

  For a weight `w`, a reward `r`, a mask bit `b` ("both neurons spiked") and a time difference
  `d = t_post - t_pre`, the update is

      dt  = if b then d else 0
      dw  = if dt > 0 then a₊ · exp (-dt / 20) else a₋ · exp (dt / 20)
      w'  = min 1 (max (-1) (w + r · (if b then dw else 0)))

  on the extended reals, the constants `a₊`, `a₋`, `20`, `±1` kept as the float patterns both programs
  spell (the same word on both sides is never evaluated). `update` is this function; `newWeight` applies
  it at every entry `(i, j)` of the weight matrix with `b = post_active i ∧ pre_active j` and
  `d = post_t i - pre_t j`.

  One program writes the mask as the conjunction of the two bits, the other as the comparison
  `float(b_post) · float(b_pre) > 1/2` of the bits read as the numbers 0 and 1; and one writes `-dt`
  where the other writes `0 - dt`. `mask_eq` and `zero_sub_eq` say these are the same, and
  `updateProduct_eq` carries them through the whole update.
-/
import Idealize.ShloMosaic.PureOps.Ideal
import Idealize.ShloMosaic.PureOps.Ideal.Laws

noncomputable section

namespace Cert.Stdp

open Idealize.ShloMosaic

/-! ## Shapes and the two coordinates of a matrix index -/

abbrev SMat : Shape := ⟨2, ![8192, 8192]⟩
abbrev SVec : Shape := ⟨1, ![8192]⟩
abbrev SSc : Shape := ⟨0, ![]⟩

/-- The row of a matrix index, as an index of a length-8192 vector (the postsynaptic neuron). -/
def rowOf (i : SMat.Idx) : SVec.Idx := fun a => match a with
  | ⟨0, _⟩ => ⟨(i 0).val, (i 0).isLt⟩
/-- The column of a matrix index, as an index of a length-8192 vector (the presynaptic neuron). -/
def colOf (i : SMat.Idx) : SVec.Idx := fun a => match a with
  | ⟨0, _⟩ => ⟨(i 1).val, (i 1).isLt⟩
/-- The one index of a rank-0 array. -/
def sc0 : SSc.Idx := fun a => a.elim0

/-! ## The update of one weight -/

/-- The weight change for a (masked) time difference `dt`: potentiation `a₊ · exp (-dt / 20)` when `dt > 0`,
    depression `a₋ · exp (dt / 20)` otherwise. -/
def dwOf (dt : EReal) : EReal :=
  Scalar.select (Ideal.cmp .ogt dt (Ideal.ofBits .f32 0x00000000#32))
    (Ideal.ofBits .f32 0x3C23D70A#32 * Ideal.exp (Ideal.div (-dt) (Ideal.ofBits .f32 0x41A00000#32)))
    (Ideal.ofBits .f32 0xBC449BA6#32 * Ideal.exp (Ideal.div dt (Ideal.ofBits .f32 0x41A00000#32)))

/-- The new weight: `w + r · dw` clipped to `[-1, 1]`, the time difference and the change both masked by `b`. -/
def update (w r : EReal) (b : BitVec 1) (d : EReal) : EReal :=
  min (Ideal.ofBits .f32 0x3F800000#32) (max (Ideal.ofBits .f32 0xBF800000#32)
    (w + r * Scalar.select b (dwOf (Scalar.select b d (Ideal.ofBits .f32 0x00000000#32))) (Ideal.ofBits .f32 0x00000000#32)))

/-- The same update with the mask given as two numbers `qa`, `pa` (the two bits as 0 or 1) compared, as a
    product, with one half, and with the negation written `0 - dt`. -/
def updateProduct (w r qa pa qt pt : EReal) : EReal :=
  min (Ideal.ofBits .f32 0x3F800000#32) (max (Ideal.ofBits .f32 0xBF800000#32)
    (w + r * Scalar.select (Ideal.cmp .ogt (qa * pa) (Ideal.ofBits .f32 0x3F000000#32))
      (Scalar.select (Ideal.cmp .ogt (Scalar.select (Ideal.cmp .ogt (qa * pa) (Ideal.ofBits .f32 0x3F000000#32)) (qt - pt) (Ideal.ofBits .f32 0x00000000#32)) (Ideal.ofBits .f32 0x00000000#32))
        (Ideal.ofBits .f32 0x3C23D70A#32 * Ideal.exp (Ideal.div (Ideal.ofBits .f32 0x00000000#32 - Scalar.select (Ideal.cmp .ogt (qa * pa) (Ideal.ofBits .f32 0x3F000000#32)) (qt - pt) (Ideal.ofBits .f32 0x00000000#32)) (Ideal.ofBits .f32 0x41A00000#32)))
        (Ideal.ofBits .f32 0xBC449BA6#32 * Ideal.exp (Ideal.div (Scalar.select (Ideal.cmp .ogt (qa * pa) (Ideal.ofBits .f32 0x3F000000#32)) (qt - pt) (Ideal.ofBits .f32 0x00000000#32)) (Ideal.ofBits .f32 0x41A00000#32))))
      (Ideal.ofBits .f32 0x00000000#32)))

/-! ## The two small identities -/

/-- The pattern `0x3F000000` denotes one half. -/
theorem ofBits_half : Ideal.ofBits .f32 0x3F000000#32 = ((1 / 2 : ℝ) : EReal) := by
  simp [Ideal.ofBits, Ideal.ieee, -EReal.coe_mul]; norm_num

/-- A bit is zero or one. -/
theorem bit_cases (a : BitVec 1) : a = 0#1 ∨ a = 1#1 := by
  revert a; decide

/-- Two bits read as the numbers 0 and 1: their product exceeds one half exactly when both are one. -/
theorem mask_eq (a b : BitVec 1) :
    Ideal.cmp .ogt ((((a.toNat : ℝ) : EReal)) * (((b.toNat : ℝ) : EReal))) (Ideal.ofBits .f32 0x3F000000#32) = a &&& b := by
  rw [ofBits_half, ← EReal.coe_mul]
  unfold Ideal.cmp
  simp only [EReal.coe_lt_coe_iff]
  rcases bit_cases a with rfl | rfl <;> rcases bit_cases b with rfl | rfl <;> norm_num <;> decide

/-- On the extended reals `0 - x` is `-x`, at the infinities too. -/
theorem zero_sub_eq (x : EReal) : Ideal.ofBits .f32 0x00000000#32 - x = -x := by
  rw [Ideal.ofBits_zero_f32, zero_sub]

/-- The product form of the update, at two bits read as numbers, is the update under the conjunction of the bits. -/
theorem updateProduct_eq (w r qt pt : EReal) (a b : BitVec 1) :
    updateProduct w r ((a.toNat : ℝ) : EReal) ((b.toNat : ℝ) : EReal) qt pt = update w r (a &&& b) (qt - pt) := by
  unfold updateProduct update dwOf
  rw [mask_eq, zero_sub_eq]

/-! ## The whole matrix -/

/-- The new weight matrix: entry `(i, j)` updated under the mask `post_active i ∧ pre_active j` with the time
    difference `post_t i - pre_t j`. -/
def newWeight (w : SMat.Idx → EReal) (r : EReal) (preActive postActive : SVec.Idx → BitVec 1)
    (preT postT : SVec.Idx → EReal) : SMat.Idx → EReal :=
  fun i => update (w i) r (postActive (rowOf i) &&& preActive (colOf i)) (postT (rowOf i) - preT (colOf i))

end Cert.Stdp

end
-- ==== Proof.KernelBlock.lean ====
/-
  One entry of the block the kernel body leaves, as the update of one weight.

  The body's single store, read at a block index `y`, is a scalar expression of six loaded values: the
  weight at `y`, the reward, the two activity numbers at `y`'s row and column, and the two spike times at
  `y`'s row and column. With its float operations read on the extended reals that expression is
  `Cert.Stdp.updateProduct`; where the two activity numbers are bits read as 0 and 1 it is therefore the
  `update` under the conjunction of the bits (`Cert.Stdp.updateProduct_eq`).
-/
import proofs.«100712_j57329223467260_1_alg».proof.Proof.KernelIdealValueP
import proofs.«100712_j57329223467260_1_alg».proof.Proof.Spec

noncomputable section

namespace Cert.KernelIdeal.Block

open Cert.KernelIdeal Cert.KernelIdeal.Gen Cert.KernelIdeal.ValueP Cert.Stdp Idealize.ShloMosaic

/-- The body's expression at a block index, on the extended reals, is the product form of the update of the six
    values it loads there. -/
theorem entry_eq_updateProduct (P0 : Vec Ideal S256x8192 .f32) (P1 : Vec Ideal S1x1 .f32) (P2 : Vec Ideal S256x1 .f32)
    (P3 : Vec Ideal S1x8192 .f32) (P4 : Vec Ideal S256x1 .f32) (P5 : Vec Ideal S1x8192 .f32) (y : S256x8192.Idx) :
    E6 (F := Ideal) P0 P1 P2 P3 P4 P5 y
      = updateProduct (P0 (ix6_0 y)) (P1 (ix6_1 y)) (P2 (ix6_2 y)) (P3 (ix6_3 y)) (P4 (ix6_6 y)) (P5 (ix6_7 y)) := rfl

/-- The block's entry at `y`, when the six loaded values are known: the weight `w`, the reward `r`, the two
    activity bits `a` (row) and `b` (column) read as numbers, and the spike times `qt` (row) and `pt` (column). -/
theorem entry_eq_update (P0 : Vec Ideal S256x8192 .f32) (P1 : Vec Ideal S1x1 .f32) (P2 : Vec Ideal S256x1 .f32)
    (P3 : Vec Ideal S1x8192 .f32) (P4 : Vec Ideal S256x1 .f32) (P5 : Vec Ideal S1x8192 .f32) (y : S256x8192.Idx)
    (w r : EReal) (a b : BitVec 1) (qt pt : EReal)
    (h0 : P0 (ix6_0 y) = w) (h1 : P1 (ix6_1 y) = r)
    (h2 : P2 (ix6_2 y) = ((a.toNat : ℝ) : EReal)) (h3 : P3 (ix6_3 y) = ((b.toNat : ℝ) : EReal))
    (h4 : P4 (ix6_6 y) = qt) (h5 : P5 (ix6_7 y) = pt) :
    (View.canon ([⟨r0_0, k0_pay1 P0 (k0_pay2 P1) (k0_pay3 P5 P3 P4 P2)⟩] : List (View.Piece (Elt Ideal) S256x8192 .f32)) : Vec Ideal S256x8192 .f32) y
      = update w r (a &&& b) (qt - pt) := by
  rw [canon6_eq, entry_eq_updateProduct, h0, h1, h2, h3, h4, h5, updateProduct_eq]

end Cert.KernelIdeal.Block

end
-- ==== Proof.KernelValue.lean ====
/-
  The kernel's result array is `newWeight`.

  The grid has 32 points; point `t` works on rows `256 t … 256 t + 255` of the weight matrix. Its blocks:
  those rows of the weights, the same rows of the two postsynaptic columns, and the whole of the two
  presynaptic rows and of the reward. So entry `y` of the block it stores is the update of the weight at
  `(256 t + y₀, y₁)` under the activity bits and spike times of row `256 t + y₀` and column `y₁`: entry
  `(256 t + y₀, y₁)` of `newWeight`. The 32 row blocks tile the matrix (row `r` lies in block `r / 256`), so
  the array after the run is `newWeight` everywhere.
-/
import proofs.«100712_j57329223467260_1_alg».proof.Proof.KernelHost
import proofs.«100712_j57329223467260_1_alg».proof.Proof.KernelBlock
import Idealize.ShloMosaic.Lib.Pipeline.Value
import Idealize.ShloMosaic.Lib.Tactic

noncomputable section

namespace Cert.KernelIdeal.Whole

open Cert.KernelIdeal Cert.KernelIdeal.Gen Cert.KernelIdeal.ValueP Cert.KernelIdeal.Host Cert.KernelIdeal.Block Cert.Stdp
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the weights, the two postsynaptic columns and the output move
    down one row block per point; the two presynaptic rows and the reward stay. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The array the kernel is to leave: `newWeight` of the weights, the reward, and the four vectors the host
    prefix makes. -/
abbrev result (c : Dev nD) : S8192x8192.Idx → EReal :=
  newWeight (m ((c.tc : Thread nD τ).loc main_arg0)) ((m ((c.tc : Thread nD τ).loc main_arg3)) sc0) (active (F := Ideal) (m ((c.tc : Thread nD τ).loc main_arg1))) (active (F := Ideal) (m ((c.tc : Thread nD τ).loc main_arg2)))
    (stamped (F := Ideal) (active (F := Ideal) (m ((c.tc : Thread nD τ).loc main_arg1))) (m ((c.tc : Thread nD τ).loc main_arg4)) (m ((c.tc : Thread nD τ).loc main_arg4))) (stamped (F := Ideal) (active (F := Ideal) (m ((c.tc : Thread nD τ).loc main_arg2))) (m ((c.tc : Thread nD τ).loc main_arg4)) (m ((c.tc : Thread nD τ).loc main_arg5)))

/-! ## The six loads of the body at point `t`, entry `y` -/

/-- The weight block: rows `256 t …` of the weights. -/
theorem weight_block (c : Dev nD) (t : Fin cfg0.N) (y : S256x8192.Idx) :
    (iblk m c 0 t : Vec Ideal S256x8192 .f32) (ix6_0 y) = ((m ((c.tc : Thread nD τ).loc main_arg0)) : S8192x8192.Idx → EReal) (((cfg0.win 6).blk t).view.emb y) := by
  obtain ⟨e60, e61, e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * (y 0).val = win0_6.index t (0 : Fin 2) * 256 + 1 * (y 0).val; omega
  | ⟨1, _⟩ => show win0_0.index t (1 : Fin 2) * 8192 + 1 * (y 1).val = win0_6.index t (1 : Fin 2) * 8192 + 1 * (y 1).val; omega

/-- The reward block: the one reward. -/
theorem reward_block (c : Dev nD) (t : Fin cfg0.N) (y : S256x8192.Idx) :
    (iblk m c 5 t : Vec Ideal S1x1 .f32) (ix6_1 y) = ((m ((c.tc : Thread nD τ).loc main_arg3)) : S_.Idx → EReal) sc0 := by
  unfold iblk
  rw [View.read_apply]
  show (V m c main_v16 : FVec Ideal S1x1 .f32) _ = _
  rw [V_reward]
  unfold shapeCast
  exact congrArg _ (funext fun d => d.elim0)

/-- The postsynaptic activity block: the bits of rows `256 t …`, as numbers. -/
theorem postActive_block (c : Dev nD) (t : Fin cfg0.N) (y : S256x8192.Idx) :
    (iblk m c 4 t : Vec Ideal S256x1 .f32) (ix6_2 y) = (((active (F := Ideal) (m ((c.tc : Thread nD τ).loc main_arg2)) (rowOf (((cfg0.win 6).blk t).view.emb y))).toNat : ℝ) : EReal) := by
  obtain ⟨e60, e61, -, -, -, -, -, -, -, -, e40, e41, -⟩ := idx_facts t
  unfold iblk
  rw [View.read_apply]
  show (V m c main_v15 : FVec Ideal S8192x1 .f32) _ = _
  rw [V_postActive]
  refine (shapeCast_apply _ _ _ (rowOf (((cfg0.win 6).blk t).view.emb y)) ?_).trans rfl
  rw [Shape.rowMajor_val_one, Shape.rowMajor_val_two]
  show win0_6.index t (0 : Fin 2) * 256 + 1 * (y 0).val = (win0_4.index t (0 : Fin 2) * 256 + 1 * (y 0).val) * 1 + (win0_4.index t (1 : Fin 2) * 1 + 1 * 0)
  omega

/-- The presynaptic activity block: the bits of all columns, as numbers. -/
theorem preActive_block (c : Dev nD) (t : Fin cfg0.N) (y : S256x8192.Idx) :
    (iblk m c 2 t : Vec Ideal S1x8192 .f32) (ix6_3 y) = (((active (F := Ideal) (m ((c.tc : Thread nD τ).loc main_arg1)) (colOf (((cfg0.win 6).blk t).view.emb y))).toNat : ℝ) : EReal) := by
  obtain ⟨e60, e61, -, -, -, -, e20, e21, -⟩ := idx_facts t
  unfold iblk
  rw [View.read_apply]
  show (V m c main_v12 : FVec Ideal S1x8192 .f32) _ = _
  rw [V_preActive]
  refine (shapeCast_apply _ _ _ (colOf (((cfg0.win 6).blk t).view.emb y)) ?_).trans rfl
  rw [Shape.rowMajor_val_one, Shape.rowMajor_val_two]
  show win0_6.index t (1 : Fin 2) * 8192 + 1 * (y 1).val = (win0_2.index t (0 : Fin 2) * 1 + 1 * 0) * 8192 + (win0_2.index t (1 : Fin 2) * 8192 + 1 * (y 1).val)
  omega

/-- The postsynaptic spike-time block: the stamped times of rows `256 t …`. -/
theorem postT_block (c : Dev nD) (t : Fin cfg0.N) (y : S256x8192.Idx) :
    (iblk m c 3 t : Vec Ideal S256x1 .f32) (ix6_6 y) = stamped (F := Ideal) (active (F := Ideal) (m ((c.tc : Thread nD τ).loc main_arg2))) (m ((c.tc : Thread nD τ).loc main_arg4)) (m ((c.tc : Thread nD τ).loc main_arg5)) (rowOf (((cfg0.win 6).blk t).view.emb y)) := by
  obtain ⟨e60, e61, -, -, -, -, -, -, e30, e31, -⟩ := idx_facts t
  unfold iblk
  rw [View.read_apply]
  show (V m c main_v13 : FVec Ideal S8192x1 .f32) _ = _
  rw [V_postT]
  refine shapeCast_apply _ _ _ (rowOf (((cfg0.win 6).blk t).view.emb y)) ?_
  rw [Shape.rowMajor_val_one, Shape.rowMajor_val_two]
  show win0_6.index t (0 : Fin 2) * 256 + 1 * (y 0).val = (win0_3.index t (0 : Fin 2) * 256 + 1 * (y 0).val) * 1 + (win0_3.index t (1 : Fin 2) * 1 + 1 * 0)
  omega

/-- The presynaptic spike-time block: the stamped times of all columns. -/
theorem preT_block (c : Dev nD) (t : Fin cfg0.N) (y : S256x8192.Idx) :
    (iblk m c 1 t : Vec Ideal S1x8192 .f32) (ix6_7 y) = stamped (F := Ideal) (active (F := Ideal) (m ((c.tc : Thread nD τ).loc main_arg1))) (m ((c.tc : Thread nD τ).loc main_arg4)) (m ((c.tc : Thread nD τ).loc main_arg4)) (colOf (((cfg0.win 6).blk t).view.emb y)) := by
  obtain ⟨e60, e61, -, -, e10, e11, -⟩ := idx_facts t
  unfold iblk
  rw [View.read_apply]
  show (V m c main_v10 : FVec Ideal S1x8192 .f32) _ = _
  rw [V_preT]
  refine shapeCast_apply _ _ _ (colOf (((cfg0.win 6).blk t).view.emb y)) ?_
  rw [Shape.rowMajor_val_one, Shape.rowMajor_val_two]
  show win0_6.index t (1 : Fin 2) * 8192 + 1 * (y 1).val = (win0_1.index t (0 : Fin 2) * 1 + 1 * 0) * 8192 + (win0_1.index t (1 : Fin 2) * 8192 + 1 * (y 1).val)
  omega

/-! ## One point's block, the cover, the array -/

/-- What point `t` writes back is block `t` of `result`. -/
theorem flushed_eq (c : Dev nD) (t : Fin cfg0.N) :
    (dats m 0 c).flushed 6 t = ((cfg0.win 6).blk t).view.read (Elt Ideal) (result m c) := by
  rw [ValueP.flushed6]
  unfold out0_6
  simp only [View.ld_unit_zero (S := S256x8192) hz, View.ld_unit_zero (S := S1x8192) hz, View.ld_unit_zero (S := S256x1) hz, View.ld_unit_zero (S := S1x1) hz]
  funext y
  exact entry_eq_update (iblk m c 0 t) (iblk m c 5 t) (iblk m c 4 t) (iblk m c 2 t) (iblk m c 3 t) (iblk m c 1 t) y _ _ _ _ _ _
    (weight_block m c t y) (reward_block m c t y) (postActive_block m c t y) (preActive_block m c t y)
    (postT_block m c t y) (preT_block m c t y)

/-- An index of the matrix is in point `t`'s block iff each coordinate is in the block's range on its axis. -/
theorem mem_blk (t : Fin cfg0.N) (i : S8192x8192.Idx) :
    i ∈ ((cfg0.win 6).blk t).view.set ↔ ∀ a : Fin 2, win0_6.index t a * S256x8192.size a ≤ (i a).val ∧ (i a).val < win0_6.index t a * S256x8192.size a + S256x8192.size a := by
  show i ∈ ((View.whole main_v17).slice (win0_6.rect t)).set ↔ _
  rw [View.set_slice_whole, Rect.mem_set_unit]
  exact Iff.rfl

/-- Every entry of the matrix is in the row block of some point: row `r` in block `r / 256`. -/
theorem cover (i : S8192x8192.Idx) : ∃ t : Fin cfg0.N, (cfg0.win 6).flush t = true ∧ i ∈ ((cfg0.win 6).blk t).view.set := by
  have hi0 : (i 0).val < 8192 := (i 0).isLt
  have hi1 : (i 1).val < 8192 := (i 1).isLt
  have hlt : (i 0).val / 256 < cfg0.N := by show _ < grid0.N; rw [N_0]; omega
  obtain ⟨e60, e61, -⟩ := idx_facts ⟨(i 0).val / 256, hlt⟩
  refine ⟨⟨(i 0).val / 256, hlt⟩, flush0_6 _, ?_⟩
  rw [mem_blk]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e60]; show (i 0).val / 256 * 256 ≤ (i 0).val ∧ (i 0).val < (i 0).val / 256 * 256 + 256; omega
  | ⟨1, _⟩ =>
    show win0_6.index ⟨(i 0).val / 256, hlt⟩ (1 : Fin 2) * 8192 ≤ (i 1).val ∧ (i 1).val < win0_6.index ⟨(i 0).val / 256, hlt⟩ (1 : Fin 2) * 8192 + 8192
    rw [e61]; omega

/-- The array after the run: the blocks written back cover it, so it is `result`. -/
theorem final (c : Dev nD) : (dats m 0 c).arrAt 6 cfg0.N = result m c :=
  (dats m 0 c).arrAt_eq_of_cover 6 (result m c) (fun t _ => flushed_eq m c t) (fun i => cover i)

/-- The kernel's run, read: the result array at `result`, the six arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (ValueP.run_blocks m ρ)

end Cert.KernelIdeal.Whole

end
-- ==== Proof.RefValue.lean ====
/-
  The reference program computes `newWeight`.

  Its run ends with the result at a composed term, which the generated read-at-an-index lemmas open one
  operation at a time. Read at a matrix index `i`, every operation after the four vectors
  `pre_active`, `post_active`, `pre_t`, `post_t` is pointwise or a broadcast: the two column broadcasts read
  their vector at the row of `i`, the two row broadcasts at the column of `i`, and what is left is the update
  of one weight, written exactly as `Cert.Stdp.update` writes it.
-/
import proofs.«100712_j57329223467260_1_alg».proof.Proof.Gen.ReferenceIdeal.Read
import proofs.«100712_j57329223467260_1_alg».proof.Proof.Spec

noncomputable section

namespace Cert.ReferenceIdeal.RefValue

open Cert.ReferenceIdeal Cert.ReferenceIdeal.Gen Cert.ReferenceIdeal.Read Cert.Stdp Idealize.ShloMosaic

/-- A column vector broadcast along the rows reads, at a matrix index, the vector at the index's row. -/
theorem row_of_mask (i : S8192x8192.Idx) : idx_main_v10 (idx_main_v12 i) = rowOf i :=
  funext fun a => Fin.ext (by match a with | ⟨0, _⟩ => rfl)
/-- A row vector broadcast along the columns reads, at a matrix index, the vector at the index's column. -/
theorem col_of_mask (i : S8192x8192.Idx) : idx_main_v11 (idx_main_v13 i) = colOf i :=
  funext fun a => Fin.ext (by match a with | ⟨0, _⟩ => rfl)
/-- The same for the two time vectors. -/
theorem row_of_time (i : S8192x8192.Idx) : idx_main_v15 (idx_main_v17 i) = rowOf i :=
  funext fun a => Fin.ext (by match a with | ⟨0, _⟩ => rfl)
theorem col_of_time (i : S8192x8192.Idx) : idx_main_v16 (idx_main_v18 i) = colOf i :=
  funext fun a => Fin.ext (by match a with | ⟨0, _⟩ => rfl)

/-- The reference's result is `newWeight` of the weights, the reward, and the reference's own four vectors: the two
    activity masks and the two updated spike-time vectors. -/
theorem result_eq (x0 : (⟨S8192x8192, .f32⟩ : BufTy).Contents (Elt Ideal)) (x1 x2 : (⟨S8192, .f32⟩ : BufTy).Contents (Elt Ideal)) (x3 : (⟨S_, .f32⟩ : BufTy).Contents (Elt Ideal)) (x4 x5 : (⟨S8192, .f32⟩ : BufTy).Contents (Elt Ideal)) :
    val_main_v39 (F := Ideal) x0 x1 x2 x3 x4 x5
      = newWeight x0 (x3 sc0) (val_main_v5 (F := Ideal) x1) (val_main_v7 (F := Ideal) x2)
          (val_main_v8 (F := Ideal) x1 x4) (val_main_v9 (F := Ideal) x2 x4 x5) := by
  funext i
  simp only [val_main_v39_apply, val_main_call6_v4_apply, val_main_call6_v3_apply, val_main_cst_13_apply, val_main_call6_v2_apply, val_main_call6_v1_apply, val_main_call6_v0_apply, val_main_cst_12_apply, val_main_v38_apply, val_main_v37_apply, val_main_v36_apply, val_main_v35_apply, val_main_call5_v1_apply, val_main_call5_v0_apply, val_main_cst_11_apply, val_main_v34_apply, val_main_v33_apply, val_main_v32_apply, val_main_cst_10_apply, val_main_v31_apply, val_main_v30_apply, val_main_v29_apply, val_main_cst_9_apply, val_main_v28_apply, val_main_v27_apply, val_main_cst_8_apply, val_main_v26_apply, val_main_v25_apply, val_main_v24_apply, val_main_cst_7_apply, val_main_v23_apply, val_main_v22_apply, val_main_v21_apply, val_main_cst_6_apply, val_main_v20_apply, val_main_call3_v1_apply, val_main_call3_v0_apply, val_main_cst_5_apply, val_main_v19_apply, val_main_v18_apply, val_main_v17_apply, val_main_v16_apply, val_main_v15_apply, val_main_v14_apply, val_main_v13_apply, val_main_v12_apply, val_main_v11_apply, val_main_v10_apply]
  rw [row_of_mask, col_of_mask, row_of_time, col_of_time]
  rfl

end Cert.ReferenceIdeal.RefValue

end
-- ==== Proof.lean ====
/-
  A reward-modulated spike-timing rule on an 8192 × 8192 weight matrix: the kernel and its reference
  compute the same matrix on the extended reals.

  Both programs first make, from the spike indicators and the spike times, the same four vectors (which
  neurons spiked; the spike times with the active neurons' set to "one past the latest presynaptic
  spike"), by the same host operations in the same order. From there

    * the reference broadcasts the vectors to the matrix shape and updates every weight at once, its mask the
      conjunction of the two activity bits (`Cert.ReferenceIdeal.RefValue.result_eq`);
    * the kernel walks the matrix in 32 blocks of 256 rows, its mask the comparison
      `float(b_post) · float(b_pre) > 1/2`, its negation written `0 - x`
      (`Cert.KernelIdeal.Whole.run`).

  Entry by entry both are `Cert.Stdp.update` of the same weight, reward, bits and time difference: the
  two masks agree because a product of two numbers from {0, 1} exceeds one half exactly when both are 1,
  and `0 - x = -x` on the extended reals, infinities included (`Cert.Stdp.updateProduct_eq`). No
  finiteness of the inputs is used.

  The three frames are the generated ones (the reference's is its generated run with the result dropped);
  the idealization rewrote nothing, so `preserves` is trivial.
-/
import proofs.«100712_j57329223467260_1_alg».proof.Defs
import proofs.«100712_j57329223467260_1_alg».proof.Proof.Gen.Kernel
import proofs.«100712_j57329223467260_1_alg».proof.Proof.Gen.Kernel.Skeleton
import proofs.«100712_j57329223467260_1_alg».proof.Proof.Gen.Kernel.Launch
import proofs.«100712_j57329223467260_1_alg».proof.Proof.Gen.Kernel.Points
import proofs.«100712_j57329223467260_1_alg».proof.Proof.Gen.Kernel.Frame
import proofs.«100712_j57329223467260_1_alg».proof.Proof.Gen.KernelIdeal
import proofs.«100712_j57329223467260_1_alg».proof.Proof.Gen.KernelIdeal.Skeleton
import proofs.«100712_j57329223467260_1_alg».proof.Proof.Gen.KernelIdeal.Launch
import proofs.«100712_j57329223467260_1_alg».proof.Proof.Gen.KernelIdeal.Points
import proofs.«100712_j57329223467260_1_alg».proof.Proof.Gen.KernelIdeal.Frame
import proofs.«100712_j57329223467260_1_alg».proof.Proof.Gen.ReferenceIdeal
import proofs.«100712_j57329223467260_1_alg».proof.Proof.Gen.Pre_finite_inputs
import proofs.«100712_j57329223467260_1_alg».proof.Proof.KernelIdealValueP
import proofs.«100712_j57329223467260_1_alg».proof.Proof.Gen.ReferenceIdeal.Run
import proofs.«100712_j57329223467260_1_alg».proof.Proof.Gen.ReferenceIdeal.Read
import proofs.«100712_j57329223467260_1_alg».proof.Proof.KernelValue
import proofs.«100712_j57329223467260_1_alg».proof.Proof.RefValue
import Idealize.ShloMosaic.Adequacy
import Idealize.ShloMosaic.Init

noncomputable section

namespace Cert.Proof

open Idealize.ShloMosaic Idealize.SL.Sem

/-! ## The two programs make the same four vectors -/

section Vectors
variable {F : FTy → Type} [FloatOps F]

/-- The reference's presynaptic activity bits are the kernel side's. -/
theorem preActive_eq (x : FVec F Cert.KernelIdeal.S8192 .f32) :
    Cert.ReferenceIdeal.Read.val_main_v5 (F := F) x = Cert.KernelIdeal.Host.active x := rfl
/-- The reference's postsynaptic activity bits are the kernel side's. -/
theorem postActive_eq (x : FVec F Cert.KernelIdeal.S8192 .f32) :
    Cert.ReferenceIdeal.Read.val_main_v7 (F := F) x = Cert.KernelIdeal.Host.active x := rfl
/-- The reference's stamped presynaptic spike times are the kernel side's. -/
theorem preT_eq (x1 x4 : FVec F Cert.KernelIdeal.S8192 .f32) :
    Cert.ReferenceIdeal.Read.val_main_v8 (F := F) x1 x4
      = Cert.KernelIdeal.Host.stamped (Cert.KernelIdeal.Host.active x1) x4 x4 := rfl
/-- The reference's stamped postsynaptic spike times are the kernel side's. -/
theorem postT_eq (x2 x4 x5 : FVec F Cert.KernelIdeal.S8192 .f32) :
    Cert.ReferenceIdeal.Read.val_main_v9 (F := F) x2 x4 x5
      = Cert.KernelIdeal.Host.stamped (Cert.KernelIdeal.Host.active x2) x4 x5 := rfl

end Vectors

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the result array at `newWeight` of the
    same weights, reward and four vectors. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq,
    (hagree c).1, (hagree c).2.1, (hagree c).2.2.1, (hagree c).2.2.2.1, (hagree c).2.2.2.2.1, (hagree c).2.2.2.2.2,
    preActive_eq, postActive_eq, preT_eq, postT_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
